-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S8192x4096 .f32) (main_arg1 : FVec F S4096x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  main_v8
-- ==== Kernel.lean ====
abbrev S8192x4096 : Shape := ⟨2, ![8192, 4096]⟩
abbrev S4096x4096 : Shape := ⟨2, ![4096, 4096]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S8192x4096, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .f32 = 32 ∨ (Rect.block (s := S8192x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .f32 = 32 ∨ (Rect.block (s := S4096x4096) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x4096.size a
  hwx0_2 : ∀ i : grid0.Coords, EltTy.bits .f32 = 32 ∨ (Rect.block (s := S8192x4096) S1024x1024.size (cc0_transform_2 i) (hinb0_2 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S8192x4096, .f32⟩
  | .hbm, ⟨3, _⟩ => ⟨S_, .f32⟩
  | .hbm, ⟨4, _⟩ => ⟨S8192x4096, .f32⟩
  | .hbm, ⟨5, _⟩ => ⟨S8192x4096, .i1⟩
  | .hbm, ⟨6, _⟩ => ⟨S_, .f32⟩
  | .hbm, ⟨7, _⟩ => ⟨S_, .f32⟩
  | .hbm, ⟨8, _⟩ => ⟨S8192x4096, .f32⟩
  | .hbm, ⟨9, _⟩ => ⟨S8192x4096, .f32⟩
  | .hbm, ⟨10, _⟩ => ⟨S8192x4096, .f32⟩
  | .hbm, ⟨11, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_cst_1 : Ref sig .tc := ⟨.hbm, 7, rfl⟩
abbrev main_call0_v0 : Ref sig .tc := ⟨.hbm, 8, rfl⟩
abbrev main_call0_v1 : Ref sig .tc := ⟨.hbm, 9, rfl⟩
abbrev main_v3 : Ref sig .tc := ⟨.hbm, 10, rfl⟩
abbrev main_v4 : Ref sig .tc := ⟨.hbm, 11, rfl⟩

abbrev nD : Nat := 1
abbrev τ : Topo := Topo.v7x

variable {F : FTy → Type} [FloatOps F]

class Facts₀ : Prop where
  bcast_S_S8192x4096 : S_.BroadcastsInDim S8192x4096 (![] : Fin 0 → Fin S8192x4096.rank)
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.StepLeaves.lean ====
/-
  What one grid step leaves behind, as a value.

  A grid step's body does three things: at the first of the four steps over the inner axis it stores zeros into the
  accumulator; at every step it stores `accumulator + (x block) · (w block)` back into the accumulator; at the last
  step it stores the thresholded accumulator into the output block. Each of these stores writes the whole
  1024 × 1024 buffer, so what a buffer holds after the step is the value of the last store into it, and a load
  that follows a store in the same step reads that store's value.

  Here `k0_pay1` is the zero block, `k0_pay2 x w acc` is `acc + x · w`, and `k0_pay3 acc` is the threshold of
  `acc`, entry by entry (their meaning at an entry is read in `PayAt`).
-/
import proofs.«142324_j20787641712654_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Steps

open Cert.KernelIdeal Cert.KernelIdeal.Gen

variable {F : FTy → Type} [FloatOps F]

/-- The origin of a rank-2 block. -/
theorem hz : (![0, 0] : Fin 2 → Nat) = fun _ => 0 := funext fun a => by fin_cases a <;> rfl

/-- A first step (inner coordinate 0): the accumulator is zeroed, read back, and left at `0 + x · w`. -/
theorem acc_first (c : Dev nD) (i : grid0.Coords) (a3 : Memref sig .tc .vmem S1024x1024 .f32) (h3 : a3.IsWhole)
    (a4 : Memref sig .tc .vmem S1024x1024 .f32) (h4 : a4.IsWhole) (a5 : Memref sig .tc .vmem S1024x1024 .f32) (h5 : a5.IsWhole)
    (a6 : Memref sig .tc .vmem S1024x1024 .f32) (h6 : a6.IsWhole) (hc0 : cond0_0 i) (hc1 : ¬cond0_1 i)
    (x0 x1 : Vec F S1024x1024 .f32) :
    sout0_A_0 c i a3 h3 a4 h4 a5 h5 a6 h6 hc0 hc1 x0 x1 = k0_pay2 x0 x1 (k0_pay1 (F := F)) := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1024x1024) hz, View.readCov_unit_zero (S := S1024x1024) _ hz]
  simp only [View.readAt_eq_ld, h3.read_unread, h4.read_unread, View.ld_unit_zero (S := S1024x1024) hz]

/-- A middle step (inner coordinate 1 or 2): the accumulator `acc` is left at `acc + x · w`. -/
theorem acc_middle (c : Dev nD) (i : grid0.Coords) (a3 : Memref sig .tc .vmem S1024x1024 .f32) (h3 : a3.IsWhole)
    (a4 : Memref sig .tc .vmem S1024x1024 .f32) (h4 : a4.IsWhole) (a5 : Memref sig .tc .vmem S1024x1024 .f32) (h5 : a5.IsWhole)
    (a6 : Memref sig .tc .vmem S1024x1024 .f32) (h6 : a6.IsWhole) (hc0 : ¬cond0_0 i) (hc1 : ¬cond0_1 i)
    (x0 x1 xs0 : Vec F S1024x1024 .f32) :
    sout0_B_0 c i a3 h3 a4 h4 a5 h5 a6 h6 hc0 hc1 x0 x1 xs0 = k0_pay2 x0 x1 xs0 := by
  unfold sout0_B_0
  rw [View.read_writes_eq_canon _ _ _ (scover0_B_0 c i a3 h3 a4 h4 a5 h5 a6 h6 hc0 hc1 x0 x1 xs0)]
  unfold kernelRun0_B
  dsimp only
  sl_unfold_words
  rw [View.canon_unit_zero hz]
  simp only [View.readAt_eq_ld, h3.read_unread, h4.read_unread, h6.read_unread, View.ld_unit_zero (S := S1024x1024) hz]

/-- A last step (inner coordinate 3): the accumulator `acc` is again left at `acc + x · w` … -/
theorem acc_last (c : Dev nD) (i : grid0.Coords) (a3 : Memref sig .tc .vmem S1024x1024 .f32) (h3 : a3.IsWhole)
    (a4 : Memref sig .tc .vmem S1024x1024 .f32) (h4 : a4.IsWhole) (a5 : Memref sig .tc .vmem S1024x1024 .f32) (h5 : a5.IsWhole)
    (a6 : Memref sig .tc .vmem S1024x1024 .f32) (h6 : a6.IsWhole) (hc0 : ¬cond0_0 i) (hc1 : cond0_1 i)
    (x0 x1 xs0 : Vec F S1024x1024 .f32) :
    sout0_C_0 c i a3 h3 a4 h4 a5 h5 a6 h6 hc0 hc1 x0 x1 xs0 = k0_pay2 x0 x1 xs0 := by
  unfold sout0_C_0
  rw [View.read_writes_eq_canon _ _ _ (scover0_C_0 c i a3 h3 a4 h4 a5 h5 a6 h6 hc0 hc1 x0 x1 xs0)]
  unfold kernelRun0_C
  dsimp only
  sl_unfold_words
  rw [View.canon_unit_zero hz]
  simp only [View.readAt_eq_ld, h3.read_unread, h4.read_unread, h6.read_unread, View.ld_unit_zero (S := S1024x1024) hz]

/-- … and the output block is the threshold of that updated accumulator. -/
theorem out_last (c : Dev nD) (i : grid0.Coords) (a3 : Memref sig .tc .vmem S1024x1024 .f32) (h3 : a3.IsWhole)
    (a4 : Memref sig .tc .vmem S1024x1024 .f32) (h4 : a4.IsWhole) (a5 : Memref sig .tc .vmem S1024x1024 .f32) (h5 : a5.IsWhole)
    (a6 : Memref sig .tc .vmem S1024x1024 .f32) (h6 : a6.IsWhole) (hc0 : ¬cond0_0 i) (hc1 : cond0_1 i)
    (x0 x1 xs0 : Vec F S1024x1024 .f32) :
    out0_C_2 c i a3 h3 a4 h4 a5 h5 a6 h6 hc0 hc1 x0 x1 xs0 = k0_pay3 (k0_pay2 x0 x1 xs0) := by
  unfold out0_C_2
  rw [View.read_writes_eq_canon _ _ _ (cover0_C_2 c i a3 h3 a4 h4 a5 h5 a6 h6 hc0 hc1 x0 x1 xs0)]
  unfold kernelRun0_C
  dsimp only
  sl_unfold_words
  rw [View.canon_unit_zero hz]
  simp only [View.readAt_eq_ld, h3.read_unread, h4.read_unread, h6.read_unread, View.ld_unit_zero (S := S1024x1024) hz, View.readCov_unit_zero (S := S1024x1024) _ hz]

end Cert.KernelIdeal.Steps

end
-- ==== Proof.Spec.lean ====
/-
  The result both programs compute, as one function of the two argument arrays.

  For x : [8192, 4096] and w : [4096, 4096] the entry (r, c) of the result is
      thresh (∑ k < 4096, x[r, k] · w[k, c]),      thresh v = 1 if v > 0, else -1,
  over the extended reals. The kernel reaches the inner sum in four runs of 1024 consecutive k (one per step of
  its last grid axis), added in order onto a zero; the reference contracts all 4096 at once. Addition of extended
  reals is commutative and associative, so a sum over 4096 consecutive indices is the sum of the four sums over its
  quarters (`rowcol_quarters`): no finiteness is needed.

  To keep every sum a `Finset.range` sum (no dependent bounds), an array is extended by zero to all pairs of
  naturals (`ext2`); inside the array it is the array (`ext2_of_lt`).
-/
import Idealize.ShloMosaic.PureOps.Ideal
import Idealize.ShloMosaic.PureOps.Ideal.Laws
import Idealize.ShloMosaic.Lib.ValueIdx
import Mathlib.Algebra.BigOperators.Intervals
import Mathlib.Algebra.BigOperators.Fin

noncomputable section

open scoped BigOperators

namespace Cert.TernBin

open Idealize.ShloMosaic Idealize.ShloMosaic.ValueIdx

/-- A rank-2 array of extended reals extended by zero to every pair of naturals. -/
def ext2 {A B : Nat} (x : (⟨2, ![A, B]⟩ : Shape).Idx → EReal) (a b : Nat) : EReal :=
  if h : a < A ∧ b < B then x (ix2 ⟨a, h.1⟩ ⟨b, h.2⟩) else 0

/-- Inside the array the extension is the array. -/
theorem ext2_of_lt {A B : Nat} (x : (⟨2, ![A, B]⟩ : Shape).Idx → EReal) {a b : Nat} (ha : a < A) (hb : b < B) :
    ext2 x a b = x (ix2 ⟨a, ha⟩ ⟨b, hb⟩) := dif_pos ⟨ha, hb⟩

/-- The extension at an index's own coordinates. -/
theorem ext2_idx {A B : Nat} (x : (⟨2, ![A, B]⟩ : Shape).Idx → EReal) (p : Fin A) (q : Fin B) :
    ext2 x p.val q.val = x (ix2 p q) := ext2_of_lt x p.isLt q.isLt

/-- Row `r` of `x` against column `c` of `w`: the contraction over all 4096 inner indices. -/
def rowcol (x : (⟨2, ![8192, 4096]⟩ : Shape).Idx → EReal) (w : (⟨2, ![4096, 4096]⟩ : Shape).Idx → EReal) (r c : Nat) : EReal :=
  ∑ k ∈ Finset.range 4096, ext2 x r k * ext2 w k c

/-- A sum over `4 · 1024` consecutive naturals is the sum over the four quarters of the sums inside each. -/
theorem sum_quarters {M : Type*} [AddCommMonoid M] (f : Nat → M) :
    ∑ k ∈ Finset.range 4096, f k = ∑ s ∈ Finset.range 4, ∑ l ∈ Finset.range 1024, f (1024 * s + l) := by
  rw [show (4096 : Nat) = 1024 + 1024 + 1024 + 1024 from rfl, Finset.sum_range_add, Finset.sum_range_add, Finset.sum_range_add]
  simp only [Finset.sum_range_succ, Finset.sum_range_zero, zero_add, Nat.mul_zero, Nat.mul_one, Nat.zero_add]

/-- Quarter `s` of the contraction: the inner indices `1024 · s, …, 1024 · s + 1023`. -/
def quarter (x : (⟨2, ![8192, 4096]⟩ : Shape).Idx → EReal) (w : (⟨2, ![4096, 4096]⟩ : Shape).Idx → EReal) (r c s : Nat) : EReal :=
  ∑ l ∈ Finset.range 1024, ext2 x r (1024 * s + l) * ext2 w (1024 * s + l) c

/-- The contraction is the sum of its four quarters. -/
theorem rowcol_quarters (x : (⟨2, ![8192, 4096]⟩ : Shape).Idx → EReal) (w : (⟨2, ![4096, 4096]⟩ : Shape).Idx → EReal) (r c : Nat) :
    rowcol x w r c = ∑ s ∈ Finset.range 4, quarter x w r c s :=
  sum_quarters fun k => ext2 x r k * ext2 w k c

/-- The threshold at zero: `+1` above it, `-1` elsewhere (the three float words are the programs' own). -/
def thresh (v : EReal) : EReal :=
  Scalar.select (Ideal.cmp .ogt v (Ideal.ofBits .f32 0x00000000#32)) (Ideal.ofBits .f32 0x3F800000#32) (Ideal.ofBits .f32 0xBF800000#32)

/-- The result array: the thresholded contraction at every entry. -/
def result (x : (⟨2, ![8192, 4096]⟩ : Shape).Idx → EReal) (w : (⟨2, ![4096, 4096]⟩ : Shape).Idx → EReal) :
    (⟨2, ![8192, 4096]⟩ : Shape).Idx → EReal :=
  fun i => thresh (rowcol x w (i 0).val (i 1).val)

end Cert.TernBin

end
-- ==== Proof.PayAt.lean ====
/-
  The three payloads read at one entry, over the extended reals.

  At entry (p, q) of a 1024 × 1024 block:
    the zero block is 0;
    `acc + x · w` is `acc[p, q] + ∑ l < 1024, x[p, l] · w[l, q]` (the product block is a matrix product into a zero
      accumulator, the change of float format before it is the identity on extended reals, and the reshapes are
      between equal shapes);
    the threshold block is `thresh (acc[p, q])`.
-/
import proofs.«142324_j20787641712654_1_alg».proof.Proof.Gen.KernelIdeal.Skeleton
import proofs.«142324_j20787641712654_1_alg».proof.Proof.Spec
import Idealize.ShloMosaic.Lib.Pipeline.Value
import Idealize.ShloMosaic.Lib.ValueIdx
import Idealize.ShloMosaic.PureOps.Ideal.Laws

noncomputable section

open scoped BigOperators
open Idealize.ShloMosaic Idealize.ShloMosaic.ValueIdx

namespace Cert.KernelIdeal.PayAt

open Cert.KernelIdeal Cert.KernelIdeal.Gen Cert.TernBin

/-! ### The matrix product's operand indices: row of the left operand, column of the right, the contracted position in between -/

theorem lhs_row (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
theorem lhs_contr (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q
theorem rhs_contr (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q
theorem rhs_col (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- The block product into a zero accumulator, at an entry: the row of `a` against the column of `b`. -/
theorem product_at {φ₁ φ₂ : FTy} (a : FVec Ideal S1024x1024 φ₁) (b : FVec Ideal S1024x1024 φ₂) (p q : Fin 1024) :
    matmul dot_S1024x1024_S1024x1024_S1024x1024_1_0_0_1_n_n none a b (constant S1024x1024 .f32 0x00000000#32) (ix2 p q)
      = ∑ l : Fin 1024, a (ix2 p l) * b (ix2 l q) := by
  show FloatOps.matmul dot_S1024x1024_S1024x1024_S1024x1024_1_0_0_1_n_n none a b (constant S1024x1024 .f32 0x00000000#32) (ix2 p q) = _
  rw [Ideal.matmul_constant_zero_apply, ← Equiv.sum_comp (contrEquiv1 dot_S1024x1024_S1024x1024_S1024x1024_1_0_0_1_n_n 1024 rfl rfl).symm]
  refine Finset.sum_congr rfl fun k _ => ?_
  have hk := contrEquiv1_symm_val dot_S1024x1024_S1024x1024_S1024x1024_1_0_0_1_n_n 1024 rfl rfl k
  have el : dot_S1024x1024_S1024x1024_S1024x1024_1_0_0_1_n_n.lhsIdx (ix2 p q) ((contrEquiv1 dot_S1024x1024_S1024x1024_S1024x1024_1_0_0_1_n_n 1024 rfl rfl).symm k) = ix2 p k := funext fun a => Fin.ext (by
    match a with
    | ⟨0, _⟩ => exact lhs_row _ _
    | ⟨1, _⟩ => exact (lhs_contr _ _).trans hk)
  have er : dot_S1024x1024_S1024x1024_S1024x1024_1_0_0_1_n_n.rhsIdx (ix2 p q) ((contrEquiv1 dot_S1024x1024_S1024x1024_S1024x1024_1_0_0_1_n_n 1024 rfl rfl).symm k) = ix2 k q := funext fun a => Fin.ext (by
    match a with
    | ⟨0, _⟩ => exact (rhs_contr _ _).trans hk
    | ⟨1, _⟩ => exact rhs_col _ _)
  rw [el, er]

/-- The zero block at an entry. -/
theorem zero_at (i : S1024x1024.Idx) : k0_pay1 (F := Ideal) i = 0 := by
  unfold k0_pay1
  rw [shapeCast_self]
  exact Ideal.ofBits_zero_f32

/-- `acc + x · w` at an entry. -/
theorem update_at (x0 x1 acc : Vec Ideal S1024x1024 .f32) (p q : Fin 1024) :
    k0_pay2 (F := Ideal) x0 x1 acc (ix2 p q) = acc (ix2 p q) + ∑ l : Fin 1024, x0 (ix2 p l) * x1 (ix2 l q) := by
  unfold k0_pay2
  rw [shapeCast_self]
  exact congrArg (acc (ix2 p q) + ·)
    (product_at (truncf (F := Ideal) .bf16 x0 bitsLt_bf16_f32) (truncf (F := Ideal) .bf16 x1 bitsLt_bf16_f32) p q)

/-- The threshold block at an entry. -/
theorem thresh_at (acc : Vec Ideal S1024x1024 .f32) (i : S1024x1024.Idx) :
    k0_pay3 (F := Ideal) acc i = thresh (acc i) := rfl

end Cert.KernelIdeal.PayAt

end
-- ==== Proof.Blocks.lean ====
/-
  Where a block sits in its array.

  The grid has 8 · 4 · 4 = 128 points, the last axis fastest: point `t` has row-block `t / 16`, column-block
  `t / 4 % 4` and inner step `t % 4`. At point `t` the left operand's block is block (t / 16, t % 4) of x, the right
  operand's is block (t % 4, t / 4 % 4) of w, and the output's is block (t / 16, t / 4 % 4) of the result; all blocks
  are 1024 × 1024. So entry (p, l) of the left block is x[1024 · (t / 16) + p, 1024 · (t % 4) + l], and entry (l, q) of
  the right block is w[1024 · (t % 4) + l, 1024 · (t / 4 % 4) + q].
-/
import proofs.«142324_j20787641712654_1_alg».proof.Proof.Gen.KernelIdeal.Frame
import proofs.«142324_j20787641712654_1_alg».proof.Proof.Spec
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen Cert.TernBin

variable (m : (ℓ : Loc nD τ sig) → Buf (Elt Ideal) ℓ)

/-- The two argument arrays as the grid finds them. -/
abbrev xarr (c : Dev nD) : (⟨2, ![8192, 4096]⟩ : Shape).Idx → EReal := V m c main_arg0
abbrev warr (c : Dev nD) : (⟨2, ![4096, 4096]⟩ : Shape).Idx → EReal := V m c main_arg1

/-- The two operand blocks at a grid point. -/
abbrev xblk (c : Dev nD) (t : Fin cfg0.N) : Vec Ideal S1024x1024 .f32 := iblk m c 0 t
abbrev wblk (c : Dev nD) (t : Fin cfg0.N) : Vec Ideal S1024x1024 .f32 := iblk m c 1 t

/-- The block indices of the three windows at point `t`, from the point's number. -/
theorem idx_facts : ∀ t : Fin cfg0.N,
    win0_0.index t (0 : Fin 2) = t.val / 16 ∧ win0_0.index t (1 : Fin 2) = t.val % 4
    ∧ win0_1.index t (0 : Fin 2) = t.val % 4 ∧ win0_1.index t (1 : Fin 2) = t.val / 4 % 4
    ∧ win0_2.index t (0 : Fin 2) = t.val / 16 ∧ win0_2.index t (1 : Fin 2) = t.val / 4 % 4 :=
  (by decide +kernel : ∀ t : Fin grid0.N, _)

/-- The grid has 128 points. -/
theorem lt_points (t : Fin cfg0.N) : t.val < 128 := lt_of_lt_of_eq t.isLt (show cfg0.N = 128 from N_0)

/-- An entry of the left operand's block is an entry of `x`. -/
theorem xblk_at (c : Dev nD) (t : Fin cfg0.N) (p l : Fin 1024) :
    xblk m c t (ix2 p l) = ext2 (xarr m c) (1024 * (t.val / 16) + p.val) (1024 * (t.val % 4) + l.val) := by
  have hN := lt_points t
  obtain ⟨e0, e1, -, -, -, -⟩ := idx_facts t
  have hp := p.isLt
  have hl := l.isLt
  rw [ext2_of_lt _ (by omega) (by omega)]
  show V m c main_arg0 (((cfg0.win 0).blk t).view.emb (ix2 p l)) = V m c main_arg0 (ix2 ⟨_, _⟩ ⟨_, _⟩)
  refine congrArg _ (funext fun a => Fin.ext ?_)
  match a with
  | ⟨0, _⟩ => show win0_0.index t (0 : Fin 2) * 1024 + 1 * p.val = 1024 * (t.val / 16) + p.val; omega
  | ⟨1, _⟩ => show win0_0.index t (1 : Fin 2) * 1024 + 1 * l.val = 1024 * (t.val % 4) + l.val; omega

/-- An entry of the right operand's block is an entry of `w`. -/
theorem wblk_at (c : Dev nD) (t : Fin cfg0.N) (l q : Fin 1024) :
    wblk m c t (ix2 l q) = ext2 (warr m c) (1024 * (t.val % 4) + l.val) (1024 * (t.val / 4 % 4) + q.val) := by
  have hN := lt_points t
  obtain ⟨-, -, e2, e3, -, -⟩ := idx_facts t
  have hq := q.isLt
  have hl := l.isLt
  rw [ext2_of_lt _ (by omega) (by omega)]
  show V m c main_arg1 (((cfg0.win 1).blk t).view.emb (ix2 l q)) = V m c main_arg1 (ix2 ⟨_, _⟩ ⟨_, _⟩)
  refine congrArg _ (funext fun a => Fin.ext ?_)
  match a with
  | ⟨0, _⟩ => show win0_1.index t (0 : Fin 2) * 1024 + 1 * l.val = 1024 * (t.val % 4) + l.val; omega
  | ⟨1, _⟩ => show win0_1.index t (1 : Fin 2) * 1024 + 1 * q.val = 1024 * (t.val / 4 % 4) + q.val; omega

end Cert.KernelIdeal.Blocks

end
-- ==== Proof.Fold.lean ====
/-
  What the accumulator holds after a grid point.

  Point `n` adds to the accumulator, at entry (p, q), quarter `n % 4` of the contraction of row
  `1024 · (n / 16) + p` of x with column `1024 · (n / 4 % 4) + q` of w (its `addend`): the block product at that point
  is exactly that quarter, because the blocks are those rows and columns of x and w. A run of four consecutive
  points `4 · u, …, 4 · u + 3` shares its row-block and column-block, starts from zero, and adds the four quarters in
  order; so after its last point the accumulator holds the whole contraction.
-/
import proofs.«142324_j20787641712654_1_alg».proof.Proof.Gen.KernelIdeal.Value
import proofs.«142324_j20787641712654_1_alg».proof.Proof.StepLeaves
import proofs.«142324_j20787641712654_1_alg».proof.Proof.PayAt
import proofs.«142324_j20787641712654_1_alg».proof.Proof.Blocks
import Mathlib.Algebra.BigOperators.Fin

noncomputable section

open scoped BigOperators
open Idealize.ShloMosaic Idealize.ShloMosaic.TcCoe Idealize.SL.Sem Idealize.ShloMosaic.ValueIdx
open Idealize.ShloMosaic.Pipeline (Dat)

namespace Cert.KernelIdeal.Fold

open Cert.KernelIdeal Cert.KernelIdeal.Gen Cert.TernBin Cert.KernelIdeal.Blocks

variable (m : (ℓ : Loc nD τ sig) → Buf (Elt Ideal) ℓ)

/-- What point `n` adds to the accumulator at an entry: one quarter of a row of x against a column of w. -/
def addend (c : Dev nD) (n : Nat) (i : S1024x1024.Idx) : EReal :=
  quarter (xarr m c) (warr m c) (1024 * (n / 16) + (i 0).val) (1024 * (n / 4 % 4) + (i 1).val) (n % 4)

/-- The block product at a point, at an entry, is that point's addend. -/
theorem product_eq (c : Dev nD) (t : Fin cfg0.N) (p q : Fin 1024) :
    ∑ l : Fin 1024, xblk m c t (ix2 p l) * wblk m c t (ix2 l q) = addend m c t.val (ix2 p q) := by
  unfold addend quarter
  rw [← Fin.sum_univ_eq_sum_range (fun l => ext2 (xarr m c) (1024 * (t.val / 16) + p.val) (1024 * (t.val % 4) + l)
    * ext2 (warr m c) (1024 * (t.val % 4) + l) (1024 * (t.val / 4 % 4) + q.val)) 1024]
  exact Finset.sum_congr rfl fun l _ => by rw [xblk_at, wblk_at]

/-- The first point of a run leaves `0 + addend`, whatever the accumulator held. -/
theorem step_first (c : Dev nD) (n : Nat) (hb : n < cfg0.N) (h0 : n % 4 = 0) (acc : Vec Ideal S1024x1024 .f32)
    (i : S1024x1024.Idx) : Value.scAt0_0 m c n hb acc i = 0 + addend m c n i := by
  obtain ⟨p, q, rfl⟩ : ∃ (p : Fin 1024) (q : Fin 1024), i = ix2 p q := ⟨i 0, i 1, eq_ix2 i⟩
  have h1 : ¬n % 4 = 3 := by omega
  unfold Value.scAt0_0
  rw [dif_pos h0, dif_neg h1]
  refine (congrFun (Steps.acc_first c _ _ _ _ _ _ _ _ _ _ _ (xblk m c ⟨n, hb⟩) (wblk m c ⟨n, hb⟩)) (ix2 p q)).trans ?_
  refine (PayAt.update_at (xblk m c ⟨n, hb⟩) (wblk m c ⟨n, hb⟩) (k0_pay1 (F := Ideal)) p q).trans ?_
  rw [PayAt.zero_at, product_eq]

/-- Every other point of a run leaves `acc + addend`. -/
theorem step_next (c : Dev nD) (n : Nat) (hb : n < cfg0.N) (h0 : ¬n % 4 = 0) (acc : Vec Ideal S1024x1024 .f32)
    (i : S1024x1024.Idx) : Value.scAt0_0 m c n hb acc i = acc i + addend m c n i := by
  obtain ⟨p, q, rfl⟩ : ∃ (p : Fin 1024) (q : Fin 1024), i = ix2 p q := ⟨i 0, i 1, eq_ix2 i⟩
  unfold Value.scAt0_0
  by_cases h1 : n % 4 = 3
  · rw [dif_neg h0, dif_pos h1]
    refine (congrFun (Steps.acc_last c _ _ _ _ _ _ _ _ _ _ _ (xblk m c ⟨n, hb⟩) (wblk m c ⟨n, hb⟩) acc) (ix2 p q)).trans ?_
    refine (PayAt.update_at (xblk m c ⟨n, hb⟩) (wblk m c ⟨n, hb⟩) acc p q).trans ?_
    rw [product_eq]
  · rw [dif_neg h0, dif_neg h1]
    refine (congrFun (Steps.acc_middle c _ _ _ _ _ _ _ _ _ _ _ (xblk m c ⟨n, hb⟩) (wblk m c ⟨n, hb⟩) acc) (ix2 p q)).trans ?_
    refine (PayAt.update_at (xblk m c ⟨n, hb⟩) (wblk m c ⟨n, hb⟩) acc p q).trans ?_
    rw [product_eq]

/-- After point `t` the accumulator holds the addends of its run so far, added onto zero. -/
theorem acc_after (c : Dev nD) (t : Fin cfg0.N) (i : S1024x1024.Idx) :
    (outsAt0 m c t.val t.isLt).2 i = 0 + ∑ s ∈ Finset.range (t.val % 4 + 1), addend m c (4 * (t.val / 4) + s) i := by
  have hN := lt_points t
  rw [Value.soutsAt0_0_eq m c t]
  exact Pipeline.accAt_add_apply (β := EReal) _ _ (fun _ => 0) (addend m c) (4 * (t.val / 4)) 3
    (fun h i => step_first m c _ h (by omega) _ i)
    (fun n h acc i h1 h2 => step_next m c n h (by omega) acc i)
    (t.val % 4) (by omega) _ i

/-- After the last point of a run the accumulator holds the whole contraction. -/
theorem acc_full (c : Dev nD) (t : Fin cfg0.N) (h3 : t.val % 4 = 3) (p q : Fin 1024) :
    (outsAt0 m c t.val t.isLt).2 (ix2 p q)
      = rowcol (xarr m c) (warr m c) (1024 * (t.val / 16) + p.val) (1024 * (t.val / 4 % 4) + q.val) := by
  have hN := lt_points t
  have h4 : t.val % 4 + 1 = 4 := by omega
  rw [acc_after, h4, zero_add, rowcol_quarters]
  refine Finset.sum_congr rfl fun s hs => ?_
  have hs4 : s < 4 := Finset.mem_range.mp hs
  have e1 : (4 * (t.val / 4) + s) / 16 = t.val / 16 := by omega
  have e2 : (4 * (t.val / 4) + s) / 4 % 4 = t.val / 4 % 4 := by omega
  have e3 : (4 * (t.val / 4) + s) % 4 = s := by omega
  unfold addend
  rw [e1, e2, e3]

end Cert.KernelIdeal.Fold

end
-- ==== Proof.Whole.lean ====
/-
  The result array after the run.

  Only the last point of each run of four writes its output block back, and that block is the threshold of the
  accumulator, which then holds the whole contraction: so the block written at point `t` (with `t % 4 = 3`) is block
  (t / 16, t / 4 % 4) of `result x w`. Entry (r, c) of the array lies in the block written at point
  `16 · (r / 1024) + 4 · (c / 1024) + 3`, so the written blocks cover the array and it ends as `result x w`.
-/
import proofs.«142324_j20787641712654_1_alg».proof.Proof.Fold

noncomputable section

open Idealize.ShloMosaic Idealize.ShloMosaic.TcCoe Idealize.SL.Sem Idealize.ShloMosaic.ValueIdx
open Idealize.ShloMosaic.Pipeline (Dat)

namespace Cert.KernelIdeal.Whole

open Cert.KernelIdeal Cert.KernelIdeal.Gen Cert.TernBin Cert.KernelIdeal.Blocks Cert.KernelIdeal.Fold

variable (m : (ℓ : Loc nD τ sig) → Buf (Elt Ideal) ℓ) (ρ : Dev nD → PrngReg)

/-- At the last point of a run the output block is the threshold of the accumulator the point leaves. -/
theorem out_thresh (c : Dev nD) (t : Fin cfg0.N) (h3 : t.val % 4 = 3) :
    (outsAt0 m c t.val t.isLt).1 = k0_pay3 (F := Ideal) (outsAt0 m c t.val t.isLt).2 := by
  have h0 : ¬t.val % 4 = 0 := by omega
  rw [outsAt0_C m c t h0 h3]
  dsimp only
  rw [Steps.out_last, Steps.acc_last]

/-- What a writing point writes back is its block of `result x w`. -/
theorem flushed_eq (c : Dev nD) (t : Fin cfg0.N) (hf : (cfg0.win 2).flush t = true) :
    (dats m 0 c).flushed 2 t = ((cfg0.win 2).blk t).view.read (Elt Ideal) (result (xarr m c) (warr m c)) := by
  have h3 : t.val % 4 = 3 := (flush0_2 t).mp hf
  have hN := lt_points t
  obtain ⟨-, -, -, -, e4, e5⟩ := idx_facts t
  rw [Value.flushed2, out_thresh m c t h3]
  funext j
  have hj0 : (j 0).val < 1024 := (j 0).isLt
  have hj1 : (j 1).val < 1024 := (j 1).isLt
  show k0_pay3 (F := Ideal) (outsAt0 m c t.val t.isLt).2 j
    = result (xarr m c) (warr m c) (((cfg0.win 2).blk t).view.emb j)
  have r0 : ((((cfg0.win 2).blk t).view.emb j) 0).val = 1024 * (t.val / 16) + (j 0).val := by
    show win0_2.index t (0 : Fin 2) * 1024 + 1 * (j 0).val = _; omega
  have r1 : ((((cfg0.win 2).blk t).view.emb j) 1).val = 1024 * (t.val / 4 % 4) + (j 1).val := by
    show win0_2.index t (1 : Fin 2) * 1024 + 1 * (j 1).val = _; omega
  unfold result
  rw [r0, r1, PayAt.thresh_at]
  exact congrArg thresh ((congrArg _ (eq_ix2 (n0 := 1024) (n1 := 1024) j)).trans (acc_full m c t h3 (j 0) (j 1)))

/-- An entry of the array is in point `t`'s block iff each coordinate is in the block's range on its axis. -/
theorem mem_blk (t : Fin cfg0.N) (i : S8192x4096.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v0).slice (win0_2.rect t)).set ↔ _
  rw [View.set_slice_whole, Rect.mem_set_unit]
  exact Iff.rfl

/-- Every entry of the array is in the block some writing point writes. -/
theorem cover (i : S8192x4096.Idx) :
    ∃ t : Fin cfg0.N, (cfg0.win 2).flush t = true ∧ i ∈ ((cfg0.win 2).blk t).view.set := by
  have hi0 : (i 0).val < 8192 := (i 0).isLt
  have hi1 : (i 1).val < 4096 := (i 1).isLt
  have hN : cfg0.N = 128 := N_0
  obtain ⟨t, tv⟩ : ∃ t : Fin cfg0.N, t.val = 16 * ((i 0).val / 1024) + 4 * ((i 1).val / 1024) + 3 :=
    ⟨⟨16 * ((i 0).val / 1024) + 4 * ((i 1).val / 1024) + 3, by omega⟩, rfl⟩
  obtain ⟨-, -, -, -, e4, e5⟩ := idx_facts t
  refine ⟨t, (flush0_2 t).mpr (by omega), ?_⟩
  rw [mem_blk]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 1024 ≤ (i 1).val ∧ (i 1).val < win0_2.index t (1 : Fin 2) * 1024 + 1024; omega

/-- The result array after the run is `result x w`. -/
theorem final (c : Dev nD) : (dats m 0 c).arrAt 2 cfg0.N = result (xarr m c) (warr m c) :=
  (dats m 0 c).arrAt_eq_of_cover 2 (result (xarr m c) (warr m c)) (flushed_eq m c) cover

/-- The run: it ends, the result array at `result x w` of the argument arrays, which are unchanged. -/
theorem run : θ_run defs (onTc (τ := τ) (main (F := Ideal))) ⟨m, fun _ => 0, ρ⟩ fun r => ∀ c : Dev nD,
      r.2.mem ((c : Thread nD τ).loc main_v0)
        = result (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Whole

end
-- ==== Proof.RefIsResult.lean ====
/-
  The reference computes `result x w`.

  Its program is one contraction of x's second axis with w's first, a comparison with a broadcast zero, and a choice
  between a broadcast +1 and a broadcast -1 (the final conversion keeps the float format). Entry by entry that is
  `thresh` of the sum over all 4096 inner indices of x[r, k] · w[k, c]: the contraction `rowcol x w r c`.
-/
import proofs.«142324_j20787641712654_1_alg».proof.Proof.Gen.ReferenceIdeal.Read
import proofs.«142324_j20787641712654_1_alg».proof.Proof.Spec
import Mathlib.Algebra.BigOperators.Fin

noncomputable section

open scoped BigOperators
open Idealize.ShloMosaic Idealize.ShloMosaic.ValueIdx

namespace Cert.ReferenceIdeal.IsResult

open Cert.ReferenceIdeal Cert.ReferenceIdeal.Gen Cert.TernBin

/-- The reference's contraction at an entry is `rowcol`. -/
theorem contraction_at (x0 : (⟨S8192x4096, .f32⟩ : BufTy).Contents (Elt Ideal)) (x1 : (⟨S4096x4096, .f32⟩ : BufTy).Contents (Elt Ideal))
    (i : S8192x4096.Idx) :
    Read.val_main_v0 (F := Ideal) x0 x1 i = rowcol x0 x1 (i 0).val (i 1).val := by
  rw [Read.val_main_v0_apply]
  unfold rowcol
  rw [← Fin.sum_univ_eq_sum_range (fun k => ext2 x0 (i 0).val k * ext2 x1 k (i 1).val) 4096]
  refine Finset.sum_congr rfl fun k _ => ?_
  have hx : ext2 x0 (i 0).val k.val = x0 (ix2 (i 0) k) := ext2_idx (A := 8192) (B := 4096) x0 (i 0) k
  have hw : ext2 x1 k.val (i 1).val = x1 (ix2 k (i 1)) := ext2_idx (A := 4096) (B := 4096) x1 k (i 1)
  have el : Read.lidx_main_v0 i k = ix2 (i 0) k := funext fun a => by
    match a with
    | ⟨0, _⟩ => rfl
    | ⟨1, _⟩ => rfl
  have er : Read.ridx_main_v0 i k = ix2 k (i 1) := funext fun a => by
    match a with
    | ⟨0, _⟩ => rfl
    | ⟨1, _⟩ => rfl
  show x0 (Read.lidx_main_v0 i k) * x1 (Read.ridx_main_v0 i k) = ext2 x0 (i 0).val k.val * ext2 x1 k.val (i 1).val
  rw [hx, hw, el, er]
  rfl

/-- The reference's result term is `result` of its two arguments. -/
theorem result_eq (x0 : (⟨S8192x4096, .f32⟩ : BufTy).Contents (Elt Ideal)) (x1 : (⟨S4096x4096, .f32⟩ : BufTy).Contents (Elt Ideal)) :
    Read.val_main_v4 (F := Ideal) x0 x1 = result x0 x1 := by
  funext i
  rw [Read.val_main_v4_apply, Read.val_main_v3_apply, Read.val_main_v2_apply, contraction_at]
  rfl

end Cert.ReferenceIdeal.IsResult

end
-- ==== Proof.lean ====
/- Two programs compute, for x : [8192, 4096] and w : [4096, 4096], the array whose entry (r, c) is +1 when
   ∑ k, x[r, k] · w[k, c] > 0 and -1 otherwise. The kernel accumulates the contraction in four runs of 1024 inner
   indices on a zeroed accumulator and thresholds after the last; the reference contracts at once. Over the
   extended reals both are the same sum (addition is commutative and associative), so the results agree entry
   by entry; the two frames are the pipeline's runs, and the idealization rewrote nothing. -/
import proofs.«142324_j20787641712654_1_alg».proof.Defs
import proofs.«142324_j20787641712654_1_alg».proof.Proof.Gen.Kernel
import proofs.«142324_j20787641712654_1_alg».proof.Proof.Gen.Kernel.Skeleton
import proofs.«142324_j20787641712654_1_alg».proof.Proof.Gen.Kernel.Launch
import proofs.«142324_j20787641712654_1_alg».proof.Proof.Gen.Kernel.Points
import proofs.«142324_j20787641712654_1_alg».proof.Proof.Gen.Kernel.Frame
import proofs.«142324_j20787641712654_1_alg».proof.Proof.Gen.KernelIdeal
import proofs.«142324_j20787641712654_1_alg».proof.Proof.Gen.KernelIdeal.Skeleton
import proofs.«142324_j20787641712654_1_alg».proof.Proof.Gen.KernelIdeal.Launch
import proofs.«142324_j20787641712654_1_alg».proof.Proof.Gen.KernelIdeal.Points
import proofs.«142324_j20787641712654_1_alg».proof.Proof.Gen.KernelIdeal.Frame
import proofs.«142324_j20787641712654_1_alg».proof.Proof.Gen.ReferenceIdeal
import proofs.«142324_j20787641712654_1_alg».proof.Proof.Gen.Pre_finite_inputs
import proofs.«142324_j20787641712654_1_alg».proof.Proof.Gen.KernelIdeal.Value
import proofs.«142324_j20787641712654_1_alg».proof.Proof.Gen.ReferenceIdeal.Run
import proofs.«142324_j20787641712654_1_alg».proof.Proof.Gen.ReferenceIdeal.Read
import proofs.«142324_j20787641712654_1_alg».proof.Proof.Whole
import proofs.«142324_j20787641712654_1_alg».proof.Proof.RefIsResult
import Idealize.ShloMosaic.Adequacy
import Idealize.ShloMosaic.Init

noncomputable section

namespace Cert.Proof

open Idealize.ShloMosaic Idealize.ShloMosaic.TcCoe Idealize.SL.Sem

/-- The word-level kernel runs and keeps its arguments: the pipeline's run. -/
theorem frame_kernel : Cert.frame_Kernel := fun m ρ _ => Cert.Kernel.Gen.frame m ρ

/-- So does the kernel over the extended reals. -/
theorem frame_kernel_ideal : Cert.frame_KernelIdeal := fun m ρ _ => Cert.KernelIdeal.Gen.frame m ρ

/-- The reference is a straight line of host operations; its run keeps the arguments. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on x and w both programs end with the result array at `result x w`: the kernel by
    summing the four quarters of each contraction onto zero and thresholding, the reference by contracting at once
    and thresholding. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.IsResult.result_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
